-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Aggregate.lean ====
/-
  The graph side of the two-layer graph convolution, as functions of arrays.

  An edge list of 1,600,000 (source, destination) pairs over 100,000 nodes is extended by one self loop
  per node.  A node's degree counts the extended edges that END in it; its scale is degree^(-1/2) where the
  degree is positive and 0 elsewhere; an edge's weight is the product of the scales of its two ends.
  A layer takes one row per node (its features times the layer's weights), gathers the row of every edge's
  source, scales it by the edge's weight, adds it into the row of the edge's destination, and adds the bias;
  the hidden layer then clamps at zero from below.  An index below zero counts from the end, as in Python.

  Both programs apply exactly these operations around their two matrix products, so they are named here
  once and never opened afterwards.
-/
import proofs.«101144_j33191507264214_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- Every edge's source node, then every node once (the self loops). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Every edge's destination node, then every node once. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A list of node indices as a gather's index column: an entry below zero is moved up by the number of nodes. -/
def wrapIdx (i : (⟨S1700000, .i32⟩ : BufTy).Contents (Elt F)) : (⟨S1700000x1, .i32⟩ : BufTy).Contents (Elt F) :=
  broadcastInDim S1700000x1 ![0] bcast_S1700000_S1700000x1_0 (select (cmpi .slt i (broadcastInDim S1700000 ![] bcast_S_S1700000 (constantI S_ 32 0#32))) (addi i (broadcastInDim S1700000 ![] bcast_S_S1700000 (constantI S_ 32 100000#32))) i)

/-- A node's degree: one for every extended edge that ends in it. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- A node's scale: degree^(-1/2) where the degree is positive, 0 elsewhere. -/
def nodeScale (dst : (⟨S1700000, .i32⟩ : BufTy).Contents (Elt F)) : (⟨S100000, .f32⟩ : BufTy).Contents (Elt F) :=
  select (cmpf .ogt (degree (F := F) dst) (broadcastInDim S100000 ![] bcast_S_S100000 (constant S_ .f32 0x00000000#32))) (Host.rsqrt (degree (F := F) dst)) (broadcastInDim S100000 ![] bcast_S_S100000 (id (constant S_ .f32 0x00000000#32)))

/-- An edge's weight: the product of its two ends' scales. -/
def edgeWeight (src dst : (⟨S1700000, .i32⟩ : BufTy).Contents (Elt F)) : (⟨S1700000, .f32⟩ : BufTy).Contents (Elt F) :=
  mulf (Host.gather gather_S100000_S1700000x1_S1700000_n_0_n_n_0_1_1 (nodeScale (F := F) dst) (wrapIdx (F := F) src)) (Host.gather gather_S100000_S1700000x1_S1700000_n_0_n_n_0_1_1 (nodeScale (F := F) dst) (wrapIdx (F := F) dst))

/-- The hidden layer after its matrix product `h`: weighted sums of neighbours' rows, the bias, the clamp at zero. -/
def hiddenLayer (h : (⟨S100000x64, .f32⟩ : BufTy).Contents (Elt F)) (src dst : (⟨S1700000, .i32⟩ : BufTy).Contents (Elt F)) (wgt : (⟨S1700000, .f32⟩ : BufTy).Contents (Elt F)) (b : (⟨S64, .f32⟩ : BufTy).Contents (Elt F)) : (⟨S100000x64, .f32⟩ : BufTy).Contents (Elt F) :=
  maximumf (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (wrapIdx (F := F) src)) (broadcastInDim S1700000x64 ![0, 1] bcast_S1700000x1_S1700000x64_0_1 (broadcastInDim S1700000x1 ![0] bcast_S1700000_S1700000x1_0 wgt)))) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The output layer after its matrix product `z`: weighted sums of neighbours' rows and the bias. -/
def outputLayer (z : (⟨S100000x32, .f32⟩ : BufTy).Contents (Elt F)) (src dst : (⟨S1700000, .i32⟩ : BufTy).Contents (Elt F)) (wgt : (⟨S1700000, .f32⟩ : BufTy).Contents (Elt F)) (b : (⟨S32, .f32⟩ : BufTy).Contents (Elt F)) : (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 z (wrapIdx (F := F) src)) (broadcastInDim S1700000x32 ![0, 1] bcast_S1700000x1_S1700000x32_0_1 (broadcastInDim S1700000x1 ![0] bcast_S1700000_S1700000x1_0 wgt)))) (broadcastInDim S100000x32 ![0, 1] bcast_S1x32_S100000x32_0_1 (broadcastInDim S1x32 ![1] bcast_S32_S1x32_1 b))

/-- The first matrix product as the host computes it: features times the first weights. -/
abbrev hostProduct1 (x : (⟨S100000x128, .f32⟩ : BufTy).Contents (Elt F)) (w : (⟨S128x64, .f32⟩ : BufTy).Contents (Elt F)) : (⟨S100000x64, .f32⟩ : BufTy).Contents (Elt F) :=
  Host.dotGeneral (φ₁ := .f32) (φ₂ := .f32) dot_S100000x128_S128x64_S100000x64_1_0_0_1_n_n none x w

/-- The second matrix product as the host computes it: hidden activations times the second weights. -/
abbrev hostProduct2 (x : (⟨S100000x64, .f32⟩ : BufTy).Contents (Elt F)) (w : (⟨S64x32, .f32⟩ : BufTy).Contents (Elt F)) : (⟨S100000x32, .f32⟩ : BufTy).Contents (Elt F) :=
  Host.dotGeneral (φ₁ := .f32) (φ₂ := .f32) dot_S100000x64_S64x32_S100000x32_1_0_0_1_n_n none x w

/-- The whole network from its two matrix products' left operands on: `mm1` and `mm2` are the products as
    functions of their operands, whoever computes them. -/
def network (mm1 : (⟨S100000x128, .f32⟩ : BufTy).Contents (Elt F) → (⟨S128x64, .f32⟩ : BufTy).Contents (Elt F) → (⟨S100000x64, .f32⟩ : BufTy).Contents (Elt F))
    (mm2 : (⟨S100000x64, .f32⟩ : BufTy).Contents (Elt F) → (⟨S64x32, .f32⟩ : BufTy).Contents (Elt F) → (⟨S100000x32, .f32⟩ : BufTy).Contents (Elt F))
    (x : (⟨S100000x128, .f32⟩ : BufTy).Contents (Elt F)) (w1 : (⟨S128x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F))
    (e : (⟨S2x1600000, .i32⟩ : BufTy).Contents (Elt F)) : (⟨S100000x32, .f32⟩ : BufTy).Contents (Elt F) :=
  outputLayer (F := F) (mm2 (hiddenLayer (F := F) (mm1 x w1) (srcIdx (F := F) e) (dstIdx (F := F) e) (edgeWeight (F := F) (srcIdx (F := F) e) (dstIdx (F := F) e)) b1) w2)
    (srcIdx (F := F) e) (dstIdx (F := F) e) (edgeWeight (F := F) (srcIdx (F := F) e) (dstIdx (F := F) e)) b2

end Cert.Gcn

end
-- ==== Proof.HostStretches.lean ====
/-
  The host operations of the kernel's program, stretch by stretch, as the shared graph-side functions.

  Between the launch and the first matrix product the program builds, from the edge list alone, the
  extended source and destination lists and the edge weights.  Between the two products it aggregates the
  first product's rows over the edges, adds the first bias and clamps at zero.  After the second product it
  aggregates again and adds the second bias.  Each statement below reads one buffer after a stretch, from
  ANY contents `W` of the buffers before it; a buffer a stretch does not write is read through unchanged.
-/
import proofs.«101144_j33191507264214_1_alg».proof.Proof.Gen.KernelIdeal.Launch
import proofs.«101144_j33191507264214_1_alg».proof.Proof.Aggregate
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

/-- Reads every operation's result in a stretch: one pass over the whole term, then the operands of a
    concatenation, which that pass does not enter, one rewrite at a time. -/
local macro "read_stretch" : tactic =>
  `(tactic| (after_results_simp
             repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Before the first product -/

/-- The extended source list, from the edge list. -/
theorem entry_src (W : Valuation τ sig (Elt F)) :
    after hostOps0_2 (after hostOps0_1 (after hostOps0 W)) (Proc.devRef .tc main_v3)
      = Cert.Gcn.srcIdx (F := F) (W (Proc.devRef .tc main_arg5)) := by
  after_results
  rfl

/-- The extended destination list, from the edge list. -/
theorem entry_dst (W : Valuation τ sig (Elt F)) :
    after hostOps0_2 (after hostOps0_1 (after hostOps0 W)) (Proc.devRef .tc main_v6)
      = Cert.Gcn.dstIdx (F := F) (W (Proc.devRef .tc main_arg5)) := by
  after_results
  rfl

set_option maxHeartbeats 8000000 in
/-- The edge weights, from the edge list. -/
theorem entry_wgt (W : Valuation τ sig (Elt F)) :
    after hostOps0_2 (after hostOps0_1 (after hostOps0 W)) (Proc.devRef .tc main_v29)
      = Cert.Gcn.edgeWeight (F := F) (Cert.Gcn.srcIdx (F := F) (W (Proc.devRef .tc main_arg5))) (Cert.Gcn.dstIdx (F := F) (W (Proc.devRef .tc main_arg5))) := by
  read_stretch
  unfold Cert.Gcn.edgeWeight Cert.Gcn.nodeScale Cert.Gcn.degree Cert.Gcn.wrapIdx Cert.Gcn.srcIdx Cert.Gcn.dstIdx
  rfl

/-- The features, both weight matrices and both biases are not written before the first product. -/
theorem entry_arg0 (W : Valuation τ sig (Elt F)) :
    after hostOps0_2 (after hostOps0_1 (after hostOps0 W)) (Proc.devRef .tc main_arg0) = W (Proc.devRef .tc main_arg0) := by
  after_results
theorem entry_arg1 (W : Valuation τ sig (Elt F)) :
    after hostOps0_2 (after hostOps0_1 (after hostOps0 W)) (Proc.devRef .tc main_arg1) = W (Proc.devRef .tc main_arg1) := by
  after_results
theorem entry_arg2 (W : Valuation τ sig (Elt F)) :
    after hostOps0_2 (after hostOps0_1 (after hostOps0 W)) (Proc.devRef .tc main_arg2) = W (Proc.devRef .tc main_arg2) := by
  after_results
theorem entry_arg3 (W : Valuation τ sig (Elt F)) :
    after hostOps0_2 (after hostOps0_1 (after hostOps0 W)) (Proc.devRef .tc main_arg3) = W (Proc.devRef .tc main_arg3) := by
  after_results
theorem entry_arg4 (W : Valuation τ sig (Elt F)) :
    after hostOps0_2 (after hostOps0_1 (after hostOps0 W)) (Proc.devRef .tc main_arg4) = W (Proc.devRef .tc main_arg4) := by
  after_results

/-! ## Between the two products -/

set_option maxHeartbeats 8000000 in
/-- The hidden activations, from the first product and the lists, weights and bias before the stretch. -/
theorem mid_hidden (W : Valuation τ sig (Elt F)) :
    after hostOps1_1 (after hostOps1 W) (Proc.devRef .tc main_v47)
      = Cert.Gcn.hiddenLayer (F := F) (W (Proc.devRef .tc main_v30)) (W (Proc.devRef .tc main_v3)) (W (Proc.devRef .tc main_v6)) (W (Proc.devRef .tc main_v29)) (W (Proc.devRef .tc main_arg2)) := by
  after_results_simp
  unfold Cert.Gcn.hiddenLayer Cert.Gcn.wrapIdx
  rfl

/-- The lists, the edge weights, the second weight matrix and bias are not written between the products. -/
theorem mid_src (W : Valuation τ sig (Elt F)) :
    after hostOps1_1 (after hostOps1 W) (Proc.devRef .tc main_v3) = W (Proc.devRef .tc main_v3) := by
  after_results
theorem mid_dst (W : Valuation τ sig (Elt F)) :
    after hostOps1_1 (after hostOps1 W) (Proc.devRef .tc main_v6) = W (Proc.devRef .tc main_v6) := by
  after_results
theorem mid_wgt (W : Valuation τ sig (Elt F)) :
    after hostOps1_1 (after hostOps1 W) (Proc.devRef .tc main_v29) = W (Proc.devRef .tc main_v29) := by
  after_results
theorem mid_arg3 (W : Valuation τ sig (Elt F)) :
    after hostOps1_1 (after hostOps1 W) (Proc.devRef .tc main_arg3) = W (Proc.devRef .tc main_arg3) := by
  after_results
theorem mid_arg4 (W : Valuation τ sig (Elt F)) :
    after hostOps1_1 (after hostOps1 W) (Proc.devRef .tc main_arg4) = W (Proc.devRef .tc main_arg4) := by
  after_results

/-! ## After the second product -/

set_option maxHeartbeats 8000000 in
/-- The result, from the second product and the lists, weights and bias before the stretch. -/
theorem tail_out (W : Valuation τ sig (Elt F)) :
    after hostOps2 W (Proc.devRef .tc main_v64)
      = Cert.Gcn.outputLayer (F := F) (W (Proc.devRef .tc main_v48)) (W (Proc.devRef .tc main_v3)) (W (Proc.devRef .tc main_v6)) (W (Proc.devRef .tc main_v29)) (W (Proc.devRef .tc main_arg4)) := by
  after_results_simp
  unfold Cert.Gcn.outputLayer Cert.Gcn.wrapIdx
  rfl

end Cert.KernelIdeal.Stretch

end
-- ==== Proof.DenseBlock.lean ====
/-
  One row block of a dense layer, read at an index.  A grid point of either launch loads a block of rows
  (10000 of them) and the whole weight matrix, narrows both to bf16 — the identity on extended reals — and
  multiplies them into a zero accumulator.  So the entry (p, q) of what the point stores is the plain sum
  over the contracted axis k of row p of the block at k times the weight at (k, q): nothing of the
  accumulator, the narrowing or the chunk order is left in it.
-/
import proofs.«101144_j33191507264214_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.TcCoe Idealize.SL.Sem

/-! ## First layer: a [10000, 128] block of features times the [128, 64] weights -/

theorem l1_lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem l1_lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem l1_rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem l1_rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `j 0` of the feature block at column `k`. -/
abbrev l1_row (j : S10000x64.Idx) (k : Fin 128) : S10000x128.Idx := fun a => match a with
  | ⟨0, _⟩ => ⟨(j 0).val, (j 0).isLt⟩
  | ⟨1, _⟩ => ⟨k.val, k.isLt⟩
/-- Row `k` of the weights at column `j 1`. -/
abbrev l1_col (j : S10000x64.Idx) (k : Fin 128) : S128x64.Idx := fun a => match a with
  | ⟨0, _⟩ => ⟨k.val, k.isLt⟩
  | ⟨1, _⟩ => ⟨(j 1).val, (j 1).isLt⟩

/-- The first layer's block product at an index: the sum over the 128 input features. -/
theorem l1_block_apply (x : Vec Ideal S10000x128 .f32) (w : Vec Ideal S128x64 .f32) (j : S10000x64.Idx) :
    k0_pay1 (F := Ideal) x w j = ∑ k : Fin 128, x (l1_row j k) * w (l1_col j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = l1_row j k := funext fun a => Fin.ext (by
    match a with
    | ⟨0, _⟩ => exact l1_lhs_0 _ _
    | ⟨1, _⟩ => exact (l1_lhs_1 _ _).trans hk)
  have er : dot_S10000x128_S128x64_S10000x64_1_0_0_1_n_n.rhsIdx j ((ValueIdx.contrEquiv1 dot_S10000x128_S128x64_S10000x64_1_0_0_1_n_n 128 rfl rfl).symm k) = l1_col j k := funext fun a => Fin.ext (by
    match a with
    | ⟨0, _⟩ => exact (l1_rhs_0 _ _).trans hk
    | ⟨1, _⟩ => exact l1_rhs_1 _ _)
  show x (dot_S10000x128_S128x64_S10000x64_1_0_0_1_n_n.lhsIdx j _) * w (dot_S10000x128_S128x64_S10000x64_1_0_0_1_n_n.rhsIdx j _) = _
  rw [el, er]

/-! ## Second layer: a [10000, 64] block of hidden activations times the [64, 32] weights -/

theorem l2_lhs_0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem l2_lhs_1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem l2_rhs_0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem l2_rhs_1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Row `j 0` of the activation block at column `k`. -/
abbrev l2_row (j : S10000x32.Idx) (k : Fin 64) : S10000x64.Idx := fun a => match a with
  | ⟨0, _⟩ => ⟨(j 0).val, (j 0).isLt⟩
  | ⟨1, _⟩ => ⟨k.val, k.isLt⟩
/-- Row `k` of the weights at column `j 1`. -/
abbrev l2_col (j : S10000x32.Idx) (k : Fin 64) : S64x32.Idx := fun a => match a with
  | ⟨0, _⟩ => ⟨k.val, k.isLt⟩
  | ⟨1, _⟩ => ⟨(j 1).val, (j 1).isLt⟩

/-- The second layer's block product at an index: the sum over the 64 hidden features (the body's
    reshape of the block to its own shape changes nothing). -/
theorem l2_block_apply (x : Vec Ideal S10000x64 .f32) (w : Vec Ideal S64x32 .f32) (j : S10000x32.Idx) :
    k1_pay1 (F := Ideal) x w j = ∑ k : Fin 64, x (l2_row j k) * w (l2_col j k) := by
  unfold k1_pay1
  simp only [matmul, shapeCast_self]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = l2_row j k := funext fun a => Fin.ext (by
    match a with
    | ⟨0, _⟩ => exact l2_lhs_0 _ _
    | ⟨1, _⟩ => exact (l2_lhs_1 _ _).trans hk)
  have er : dot_S10000x64_S64x32_S10000x32_1_0_0_1_n_n.rhsIdx j ((ValueIdx.contrEquiv1 dot_S10000x64_S64x32_S10000x32_1_0_0_1_n_n 64 rfl rfl).symm k) = l2_col j k := funext fun a => Fin.ext (by
    match a with
    | ⟨0, _⟩ => exact (l2_rhs_0 _ _).trans hk
    | ⟨1, _⟩ => exact l2_rhs_1 _ _)
  show x (dot_S10000x64_S64x32_S10000x32_1_0_0_1_n_n.lhsIdx j _) * w (dot_S10000x64_S64x32_S10000x32_1_0_0_1_n_n.rhsIdx j _) = _
  rw [el, er]

end Cert.KernelIdeal.Dense

end
-- ==== Proof.DenseWhole.lean ====
/-
  The two matrix products of the network as the reference computes them, whole: features [100000, 128]
  times weights [128, 64], and hidden activations [100000, 64] times weights [64, 32].  On extended reals
  the entry (r, q) of either is the plain sum over the contracted axis k of the left operand at (r, k) times
  the right operand at (k, q).
-/
import proofs.«101144_j33191507264214_1_alg».proof.Proof.Gen.ReferenceIdeal
import Idealize.ShloMosaic.Lib.ValueIdx
import Idealize.ShloMosaic.PureOps.Ideal.Laws

noncomputable section

namespace Cert.Gcn

open Cert.ReferenceIdeal Cert.ReferenceIdeal.Gen Idealize.ShloMosaic Idealize.ShloMosaic.TcCoe Idealize.SL.Sem

/-! ## The first product: 128 input features -/

theorem mm1_lhs_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem mm1_lhs_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem mm1_rhs_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem mm1_rhs_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Row `i 0` of the features at column `k`. -/
abbrev mm1_row (i : S100000x64.Idx) (k : Fin 128) : S100000x128.Idx := fun a => match a with
  | ⟨0, _⟩ => ⟨(i 0).val, (i 0).isLt⟩
  | ⟨1, _⟩ => ⟨k.val, k.isLt⟩
/-- Row `k` of the first weights at column `i 1`. -/
abbrev mm1_col (i : S100000x64.Idx) (k : Fin 128) : S128x64.Idx := fun a => match a with
  | ⟨0, _⟩ => ⟨k.val, k.isLt⟩
  | ⟨1, _⟩ => ⟨(i 1).val, (i 1).isLt⟩

/-- The first layer's product at an index: the sum over the 128 input features. -/
theorem mm1_apply (x : FVec Ideal S100000x128 .f32) (w : FVec Ideal S128x64 .f32) (i : S100000x64.Idx) :
    Host.dotGeneral dot_S100000x128_S128x64_S100000x64_1_0_0_1_n_n none x w i = ∑ k : Fin 128, x (mm1_row i k) * w (mm1_col i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = mm1_row i k := funext fun a => Fin.ext (by
    match a with
    | ⟨0, _⟩ => exact mm1_lhs_0 _ _
    | ⟨1, _⟩ => exact (mm1_lhs_1 _ _).trans hk)
  have er : dot_S100000x128_S128x64_S100000x64_1_0_0_1_n_n.rhsIdx i ((ValueIdx.contrEquiv1 dot_S100000x128_S128x64_S100000x64_1_0_0_1_n_n 128 rfl rfl).symm k) = mm1_col i k := funext fun a => Fin.ext (by
    match a with
    | ⟨0, _⟩ => exact (mm1_rhs_0 _ _).trans hk
    | ⟨1, _⟩ => exact mm1_rhs_1 _ _)
  rw [el, er]

/-! ## The second product: 64 hidden features -/

theorem mm2_lhs_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem mm2_lhs_1 (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem mm2_rhs_0 (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem mm2_rhs_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- Row `i 0` of the hidden activations at column `k`. -/
abbrev mm2_row (i : S100000x32.Idx) (k : Fin 64) : S100000x64.Idx := fun a => match a with
  | ⟨0, _⟩ => ⟨(i 0).val, (i 0).isLt⟩
  | ⟨1, _⟩ => ⟨k.val, k.isLt⟩
/-- Row `k` of the second weights at column `i 1`. -/
abbrev mm2_col (i : S100000x32.Idx) (k : Fin 64) : S64x32.Idx := fun a => match a with
  | ⟨0, _⟩ => ⟨k.val, k.isLt⟩
  | ⟨1, _⟩ => ⟨(i 1).val, (i 1).isLt⟩

/-- The second layer's product at an index: the sum over the 64 hidden features. -/
theorem mm2_apply (x : FVec Ideal S100000x64 .f32) (w : FVec Ideal S64x32 .f32) (i : S100000x32.Idx) :
    Host.dotGeneral dot_S100000x64_S64x32_S100000x32_1_0_0_1_n_n none x w i = ∑ k : Fin 64, x (mm2_row i k) * w (mm2_col i k) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = mm2_row i k := funext fun a => Fin.ext (by
    match a with
    | ⟨0, _⟩ => exact mm2_lhs_0 _ _
    | ⟨1, _⟩ => exact (mm2_lhs_1 _ _).trans hk)
  have er : dot_S100000x64_S64x32_S100000x32_1_0_0_1_n_n.rhsIdx i ((ValueIdx.contrEquiv1 dot_S100000x64_S64x32_S100000x32_1_0_0_1_n_n 64 rfl rfl).symm k) = mm2_col i k := funext fun a => Fin.ext (by
    match a with
    | ⟨0, _⟩ => exact (mm2_rhs_0 _ _).trans hk
    | ⟨1, _⟩ => exact mm2_rhs_1 _ _)
  rw [el, er]

end Cert.Gcn

end
-- ==== Proof.DenseLayer1.lean ====
/-
  The first launch's output array is the whole first product.

  The launch has ten grid points; point t fetches rows 10000·t … 10000·t + 9999 of the features and the
  whole weight matrix, and writes back the same rows of the output.  What it writes at (p, q) of its block
  is the sum over k of the feature block at (p, k) times the weights at (k, q), which is the entry
  (10000·t + p, q) of the product of the whole arrays.  The ten blocks tile the output, so after the run
  the output array IS that product — whatever the buffers held when the launch was entered (`V`).
-/
import proofs.«101144_j33191507264214_1_alg».proof.Proof.Gen.KernelIdeal.Frame
import proofs.«101144_j33191507264214_1_alg».proof.Proof.DenseBlock
import proofs.«101144_j33191507264214_1_alg».proof.Proof.DenseWhole
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the ten grid points: the features and the output move down by one block of rows per
    point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The product of the whole feature and weight arrays as the launch finds them. -/
abbrev product (c : Dev nD) : FVec Ideal Cert.ReferenceIdeal.S100000x64 .f32 :=
  Host.dotGeneral (F := Ideal) (φ₁ := .f32) (φ₂ := .f32) Cert.ReferenceIdeal.dot_S100000x128_S128x64_S100000x64_1_0_0_1_n_n none
    (V c main_arg0 : FVec Ideal Cert.ReferenceIdeal.S100000x128 .f32) (V c main_arg1 : FVec Ideal Cert.ReferenceIdeal.S128x64 .f32)

/-- Point t's feature block is rows 10000·t … of the feature array. -/
theorem feature_block_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : Vec Ideal S100000x128 .f32) i := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- Every point's weight block is the whole weight array. -/
theorem weight_block_apply (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg1 : Vec Ideal S128x64 .f32) i := by
  obtain ⟨-, -, e2, e3, -, -⟩ := idx_facts t
  unfold iblk0
  rw [View.read_apply]
  show V c main_arg1 _ = V c main_arg1 _
  refine congrArg (V c main_arg1) ?_
  funext a
  apply Fin.ext
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- What point t writes back is its block of rows of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext j
  rw [View.read_apply]
  show k0_pay1 (F := Ideal) (iblk0 V c 0 t) (iblk0 V c 1 t) j = product V c (((cfg0.win 2).blk t).view.emb j)
  refine (Dense.l1_block_apply (iblk0 V c 0 t) (iblk0 V c 1 t) j).trans ?_
  refine Eq.trans ?_ (Cert.Gcn.mm1_apply (V c main_arg0) (V c main_arg1) (((cfg0.win 2).blk t).view.emb j)).symm
  refine Finset.sum_congr rfl fun k _ => ?_
  have hr : ((((cfg0.win 2).blk t).view.emb j) 0).val = t.val * 10000 + (j 0).val := by
    show win0_2.index t (0 : Fin 2) * 10000 + 1 * (j 0).val = _; rw [e4]; omega
  have hq : ((((cfg0.win 2).blk t).view.emb j) 1).val = (j 1).val := by
    show win0_2.index t (1 : Fin 2) * 64 + 1 * (j 1).val = _; rw [e5]; omega
  exact congrArg₂ (· * ·)
    (feature_block_apply V c t (Dense.l1_row j k) (Cert.Gcn.mm1_row (((cfg0.win 2).blk t).view.emb j) k) hr rfl)
    (weight_block_apply V c t (Dense.l1_col j k) (Cert.Gcn.mm1_col (((cfg0.win 2).blk t).view.emb j) k) rfl hq)

/-- An index of the output is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the output is written back by point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]; omega

/-- After the launch its output array holds the whole first product of the arrays it was entered with. -/
theorem array_eq (c : Dev nD) : (dat0 V c).arrAt 2 cfg0.N = product V c :=
  (dat0 V c).arrAt_eq_of_cover 2 (product V c) (fun t _ => flushed_eq V c t) cover

end Cert.KernelIdeal.Layer1

end
-- ==== Proof.DenseLayer2.lean ====
/-
  The second launch's output array is the whole second product.

  The launch has ten grid points; point t fetches rows 10000·t … 10000·t + 9999 of the hidden activations
  and the whole second weight matrix, and writes back the same rows of the output.  What it writes at (p, q)
  of its block is the sum over k of the activation block at (p, k) times the weights at (k, q), which is the
  entry (10000·t + p, q) of the product of the whole arrays.  The ten blocks tile the output, so after the
  run the output array IS that product — whatever the buffers held when the launch was entered (`V`).
-/
import proofs.«101144_j33191507264214_1_alg».proof.Proof.Gen.KernelIdeal.Frame
import proofs.«101144_j33191507264214_1_alg».proof.Proof.DenseBlock
import proofs.«101144_j33191507264214_1_alg».proof.Proof.DenseWhole
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the ten grid points: the activations and the output move down by one block of rows
    per point, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- The product of the whole activation and weight arrays as the launch finds them. -/
abbrev product (c : Dev nD) : FVec Ideal Cert.ReferenceIdeal.S100000x32 .f32 :=
  Host.dotGeneral (F := Ideal) (φ₁ := .f32) (φ₂ := .f32) Cert.ReferenceIdeal.dot_S100000x64_S64x32_S100000x32_1_0_0_1_n_n none
    (V c main_v47 : FVec Ideal Cert.ReferenceIdeal.S100000x64 .f32) (V c main_arg3 : FVec Ideal Cert.ReferenceIdeal.S64x32 .f32)

/-- Point t's activation block is rows 10000·t … of the activation array. -/
theorem hidden_block_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v47 : Vec Ideal S100000x64 .f32) i := by
  obtain ⟨e0, e1, -, -, -, -⟩ := idx_facts t
  unfold iblk1
  rw [View.read_apply]
  show V c main_v47 _ = V c main_v47 _
  refine congrArg (V c main_v47) ?_
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- Every point's weight block is the whole second weight array. -/
theorem weight_block_apply (c : Dev nD) (t : Fin cfg1.N) (y : S64x32.Idx) (i : S64x32.Idx)
    (h0 : (i 0).val = (y 0).val) (h1 : (i 1).val = (y 1).val) :
    (iblk1 V c 1 t : Vec Ideal S64x32 .f32) y = (V c main_arg3 : Vec Ideal S64x32 .f32) i := by
  obtain ⟨-, -, e2, e3, -, -⟩ := idx_facts t
  unfold iblk1
  rw [View.read_apply]
  show V c main_arg3 _ = V c main_arg3 _
  refine congrArg (V c main_arg3) ?_
  funext a
  apply Fin.ext
  match a with
  | ⟨0, _⟩ => show win1_1.index t (0 : Fin 2) * 64 + 1 * (y 0).val = (i 0).val; rw [e2, h0]; omega
  | ⟨1, _⟩ => show win1_1.index t (1 : Fin 2) * 32 + 1 * (y 1).val = (i 1).val; rw [e3, h1]; omega

/-- What point t writes back is its block of rows of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨-, -, -, -, e4, e5⟩ := idx_facts t
  funext j
  rw [View.read_apply]
  show k1_pay1 (F := Ideal) (iblk1 V c 0 t) (iblk1 V c 1 t) j = product V c (((cfg1.win 2).blk t).view.emb j)
  refine (Dense.l2_block_apply (iblk1 V c 0 t) (iblk1 V c 1 t) j).trans ?_
  refine Eq.trans ?_ (Cert.Gcn.mm2_apply (V c main_v47) (V c main_arg3) (((cfg1.win 2).blk t).view.emb j)).symm
  refine Finset.sum_congr rfl fun k _ => ?_
  have hr : ((((cfg1.win 2).blk t).view.emb j) 0).val = t.val * 10000 + (j 0).val := by
    show win1_2.index t (0 : Fin 2) * 10000 + 1 * (j 0).val = _; rw [e4]; omega
  have hq : ((((cfg1.win 2).blk t).view.emb j) 1).val = (j 1).val := by
    show win1_2.index t (1 : Fin 2) * 32 + 1 * (j 1).val = _; rw [e5]; omega
  exact congrArg₂ (· * ·)
    (hidden_block_apply V c t (Dense.l2_row j k) (Cert.Gcn.mm2_row (((cfg1.win 2).blk t).view.emb j) k) hr rfl)
    (weight_block_apply V c t (Dense.l2_col j k) (Cert.Gcn.mm2_col (((cfg1.win 2).blk t).view.emb j) k) rfl hq)

/-- An index of the output is in point t's block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- Row r of the output is written back by point r / 10000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  have hlt : (i 0).val / 10000 < cfg1.N := by rw [hN]; omega
  obtain ⟨-, -, -, -, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 32 ≤ (i 1).val ∧ (i 1).val < win1_2.index ⟨(i 0).val / 10000, hlt⟩ (1 : Fin 2) * 32 + 32
    rw [e5]; omega

/-- After the launch its output array holds the whole second product of the arrays it was entered with. -/
theorem array_eq (c : Dev nD) : (dat1 V c).arrAt 2 cfg1.N = product V c :=
  (dat1 V c).arrAt_eq_of_cover 2 (product V c) (fun t _ => flushed_eq V c t) cover

end Cert.KernelIdeal.Layer2

end
-- ==== Proof.KernelValue.lean ====
/-
  The kernel's result array after its run is the shared network around the two launches' products.

  The run's last segment boundary holds the result as the closing stretch of host operations applied to what
  the second launch left.  Walking back: the second launch's output is the whole second product of the
  hidden activations it was entered with; those are the middle stretch applied to the first launch's output,
  which is the whole first product of the features and first weights; the extended edge lists and the edge
  weights were built from the edge list before the first launch and no later stretch or launch writes them;
  and no stretch or launch writes an argument.
-/
import proofs.«101144_j33191507264214_1_alg».proof.Proof.Gen.KernelIdeal.Frame
import proofs.«101144_j33191507264214_1_alg».proof.Proof.HostStretches
import proofs.«101144_j33191507264214_1_alg».proof.Proof.DenseLayer1
import proofs.«101144_j33191507264214_1_alg».proof.Proof.DenseLayer2

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The extended source list of the launched edge list. -/
abbrev src (c : Dev nD) := Cert.Gcn.srcIdx (F := Ideal) (m ((c : Thread nD τ).loc main_arg5))
/-- The extended destination list of the launched edge list. -/
abbrev dst (c : Dev nD) := Cert.Gcn.dstIdx (F := Ideal) (m ((c : Thread nD τ).loc main_arg5))
/-- The edge weights of the launched edge list. -/
abbrev wgt (c : Dev nD) := Cert.Gcn.edgeWeight (F := Ideal) (src m c) (dst m c)
/-- The first product of the launched features and first weights. -/
abbrev prod1 (c : Dev nD) := Cert.Gcn.hostProduct1 (F := Ideal) (m ((c : Thread nD τ).loc main_arg0)) (m ((c : Thread nD τ).loc main_arg1))
/-- The hidden activations. -/
abbrev hid (c : Dev nD) := Cert.Gcn.hiddenLayer (F := Ideal) (prod1 m c) (src m c) (dst m c) (wgt m c) (m ((c : Thread nD τ).loc main_arg2))

/-! ## When the first launch is entered -/

theorem W3_src (c : Dev nD) : W3 m ρ c (Proc.devRef .tc main_v3) = src m c := Stretch.entry_src (W0 m ρ c)
theorem W3_dst (c : Dev nD) : W3 m ρ c (Proc.devRef .tc main_v6) = dst m c := Stretch.entry_dst (W0 m ρ c)
theorem W3_wgt (c : Dev nD) : W3 m ρ c (Proc.devRef .tc main_v29) = wgt m c := Stretch.entry_wgt (W0 m ρ c)
theorem W3_arg0 (c : Dev nD) : W3 m ρ c (Proc.devRef .tc main_arg0) = (m ((c : Thread nD τ).loc main_arg0)) := Stretch.entry_arg0 (W0 m ρ c)
theorem W3_arg1 (c : Dev nD) : W3 m ρ c (Proc.devRef .tc main_arg1) = (m ((c : Thread nD τ).loc main_arg1)) := Stretch.entry_arg1 (W0 m ρ c)
theorem W3_arg2 (c : Dev nD) : W3 m ρ c (Proc.devRef .tc main_arg2) = (m ((c : Thread nD τ).loc main_arg2)) := Stretch.entry_arg2 (W0 m ρ c)
theorem W3_arg3 (c : Dev nD) : W3 m ρ c (Proc.devRef .tc main_arg3) = (m ((c : Thread nD τ).loc main_arg3)) := Stretch.entry_arg3 (W0 m ρ c)
theorem W3_arg4 (c : Dev nD) : W3 m ρ c (Proc.devRef .tc main_arg4) = (m ((c : Thread nD τ).loc main_arg4)) := Stretch.entry_arg4 (W0 m ρ c)

/-! ## When the first launch is left: its output is the first product, everything else is as entered -/

theorem W4_src (c : Dev nD) : W4 m ρ c (Proc.devRef .tc main_v3) = src m c := (W4_of_ne m ρ c main_v3 (by decide)).trans (W3_src m ρ c)
theorem W4_dst (c : Dev nD) : W4 m ρ c (Proc.devRef .tc main_v6) = dst m c := (W4_of_ne m ρ c main_v6 (by decide)).trans (W3_dst m ρ c)
theorem W4_wgt (c : Dev nD) : W4 m ρ c (Proc.devRef .tc main_v29) = wgt m c := (W4_of_ne m ρ c main_v29 (by decide)).trans (W3_wgt m ρ c)
theorem W4_arg2 (c : Dev nD) : W4 m ρ c (Proc.devRef .tc main_arg2) = (m ((c : Thread nD τ).loc main_arg2)) := (W4_of_ne m ρ c main_arg2 (by decide)).trans (W3_arg2 m ρ c)
theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)

theorem W4_product (c : Dev nD) : W4 m ρ c (Proc.devRef .tc main_v30) = prod1 m c := by
  refine (W4_arr m ρ c 2).trans ((Layer1.array_eq (V3 m ρ) c).trans ?_)
  show Cert.Gcn.hostProduct1 (F := Ideal) (W3 m ρ c (Proc.devRef .tc main_arg0)) (W3 m ρ c (Proc.devRef .tc main_arg1)) = _
  rw [W3_arg0, W3_arg1]

/-! ## When the second launch is entered -/

theorem W6_hidden (c : Dev nD) : W6 m ρ c (Proc.devRef .tc main_v47) = hid m c := by
  refine (Stretch.mid_hidden (W4 m ρ c)).trans ?_
  rw [W4_product, W4_src, W4_dst, W4_wgt, W4_arg2]
theorem W6_src (c : Dev nD) : W6 m ρ c (Proc.devRef .tc main_v3) = src m c := (Stretch.mid_src (W4 m ρ c)).trans (W4_src m ρ c)
theorem W6_dst (c : Dev nD) : W6 m ρ c (Proc.devRef .tc main_v6) = dst m c := (Stretch.mid_dst (W4 m ρ c)).trans (W4_dst m ρ c)
theorem W6_wgt (c : Dev nD) : W6 m ρ c (Proc.devRef .tc main_v29) = wgt m c := (Stretch.mid_wgt (W4 m ρ c)).trans (W4_wgt m ρ c)
theorem W6_arg3 (c : Dev nD) : W6 m ρ c (Proc.devRef .tc main_arg3) = (m ((c : Thread nD τ).loc main_arg3)) := (Stretch.mid_arg3 (W4 m ρ c)).trans (W4_arg3 m ρ c)
theorem W6_arg4 (c : Dev nD) : W6 m ρ c (Proc.devRef .tc main_arg4) = (m ((c : Thread nD τ).loc main_arg4)) := (Stretch.mid_arg4 (W4 m ρ c)).trans (W4_arg4 m ρ c)

/-! ## When the second launch is left: its output is the second product, everything else is as entered -/

theorem W7_src (c : Dev nD) : W7 m ρ c (Proc.devRef .tc main_v3) = src m c := (W7_of_ne m ρ c main_v3 (by decide)).trans (W6_src m ρ c)
theorem W7_dst (c : Dev nD) : W7 m ρ c (Proc.devRef .tc main_v6) = dst m c := (W7_of_ne m ρ c main_v6 (by decide)).trans (W6_dst m ρ c)
theorem W7_wgt (c : Dev nD) : W7 m ρ c (Proc.devRef .tc main_v29) = wgt m c := (W7_of_ne m ρ c main_v29 (by decide)).trans (W6_wgt m ρ c)
theorem W7_arg4 (c : Dev nD) : W7 m ρ c (Proc.devRef .tc main_arg4) = (m ((c : Thread nD τ).loc main_arg4)) := (W7_of_ne m ρ c main_arg4 (by decide)).trans (W6_arg4 m ρ c)

theorem W7_product (c : Dev nD) : W7 m ρ c (Proc.devRef .tc main_v48) = Cert.Gcn.hostProduct2 (F := Ideal) (hid m c) (m ((c : Thread nD τ).loc main_arg3)) := by
  refine (W7_arr m ρ c 2).trans ((Layer2.array_eq (V6 m ρ) c).trans ?_)
  show Cert.Gcn.hostProduct2 (F := Ideal) (W6 m ρ c (Proc.devRef .tc main_v47)) (W6 m ρ c (Proc.devRef .tc main_arg3)) = _
  rw [W6_hidden, W6_arg3]

/-! ## The result -/

/-- The result array at the run's last boundary is the network of the launched arguments. -/
theorem result (c : Dev nD) :
    W8 m ρ c (Proc.devRef .tc main_v64)
      = Cert.Gcn.network (F := Ideal) (Cert.Gcn.hostProduct1 (F := Ideal)) (Cert.Gcn.hostProduct2 (F := Ideal))
          (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Stretch.tail_out (W7 m ρ c)).trans ?_
  rw [W7_product, W7_src, W7_dst, W7_wgt, W7_arg4]
  rfl

end Cert.KernelIdeal.KValue

end
-- ==== Proof.RefValue.lean ====
/-
  The reference's result is the shared network around its own two matrix products.

  The reference's run ends with its result at one composed term of the six arguments.  That term is, operation
  for operation, the graph-side functions of the module on aggregation applied around `dot_general` of the
  features with the first weights and `dot_general` of the hidden activations with the second weights.
-/
import proofs.«101144_j33191507264214_1_alg».proof.Proof.RefRun
import proofs.«101144_j33191507264214_1_alg».proof.Proof.Aggregate

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The reference's composed result term is the network over its two products. -/
theorem result_eq (m : (ℓ : Loc nD τ sig) → Buf (Elt F) ℓ) (c : Dev nD) :
    Cert.ReferenceIdeal.ValueP.res_main_v64 (F := F) m c
      = Cert.Gcn.network (F := F) (Cert.Gcn.hostProduct1 (F := F)) (Cert.Gcn.hostProduct2 (F := F))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v64 Cert.Gcn.network Cert.Gcn.outputLayer Cert.Gcn.hiddenLayer Cert.Gcn.edgeWeight Cert.Gcn.nodeScale Cert.Gcn.degree Cert.Gcn.wrapIdx Cert.Gcn.srcIdx Cert.Gcn.dstIdx
  rfl

end Cert.ReferenceIdeal.RefValue

end
-- ==== Proof.lean ====
/-
  A two-layer graph convolution: the kernel's program against its jnp reference, over the extended reals.

  Both programs compute, from node features x [100000, 128], weights W1 [128, 64] and W2 [64, 32], biases b1, b2
  and an edge list of 1,600,000 (source, destination) pairs:

      norm  = the edge weights d(src)·d(dst) over the edges extended by one self loop per node,
              d = degree^(-1/2) where the degree is positive, 0 elsewhere;
      h     = max (scatter-add over dst of (x·W1)[src]·norm  + b1, 0);
      z     =      scatter-add over dst of (h·W2)[src]·norm  + b2.

  They differ only in the two matrix products.  The reference takes each as one `dot_general` of the whole
  arrays.  The kernel launches, for each, a grid of ten points; a point narrows a block of 10000 rows and the
  whole weight matrix to bf16 and multiplies them into a zero f32 accumulator.  On extended reals the narrowing
  is the identity and both are the plain sum over the contracted axis, entry by entry; the ten row blocks tile
  the output.  So each launch leaves the whole product, and the two programs end with the same array.  No law
  beyond that reading of a sum is used, so the finiteness of the inputs is never opened.

  The modules: the products read at an index (DenseBlock for a grid point's block, DenseWhole for the whole
  arrays); each launch's output array as the whole product (DenseLayer1, DenseLayer2); the graph side named once
  (Aggregate) and the kernel's host operations read as it, stretch by stretch (HostStretches); the kernel's result
  walked back from the end of its run to the arguments (KernelValue) and the reference's result term as the same
  network (RefValue).
-/
import proofs.«101144_j33191507264214_1_alg».proof.Defs
import proofs.«101144_j33191507264214_1_alg».proof.Proof.Gen.Kernel
import proofs.«101144_j33191507264214_1_alg».proof.Proof.Gen.Kernel.Frame
import proofs.«101144_j33191507264214_1_alg».proof.Proof.Gen.KernelIdeal
import proofs.«101144_j33191507264214_1_alg».proof.Proof.Gen.KernelIdeal.Frame
import proofs.«101144_j33191507264214_1_alg».proof.Proof.Gen.ReferenceIdeal
import proofs.«101144_j33191507264214_1_alg».proof.Proof.Gen.Pre_finite_inputs
import proofs.«101144_j33191507264214_1_alg».proof.Proof.KernelRun
import proofs.«101144_j33191507264214_1_alg».proof.Proof.KernelValue
import proofs.«101144_j33191507264214_1_alg».proof.Proof.RefRun
import proofs.«101144_j33191507264214_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the network of the arguments: the kernel's two launches each leave the
    whole matrix product the reference takes in one operation, and everything around the products is the same. -/
theorem algebraic : Cert.algebraic_KernelIdeal_ReferenceIdeal := by
  intro m ρ m' ρ' _ hagree
  refine ⟨fun c => Cert.Gcn.network (F := Ideal) (Cert.Gcn.hostProduct1 (F := Ideal)) (Cert.Gcn.hostProduct2 (F := Ideal))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

/-- The idealization rewrote no operation, so there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
